-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4096x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 25
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .i1⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S1x4096, .f32⟩
  | .hbm, ⟨24, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v31 : BitVec 1 := Scalar.cmpi .eq arg2 c7_i32
  let v32 : BitVec 32 := Scalar.extui v31
  let c0_i32_14 : BitVec 32 := 0#32
  let v33 : BitVec 1 := Scalar.cmpi .ne v32 c0_i32_14
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bcast_S_S4096 : S_.BroadcastsInDim S4096 (![] : Fin 0 → Fin S4096.rank)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x4096.size a
  hwx0_3 : ∀ i : grid0.Coords, EltTy.bits .f32 = 32 ∨ (Rect.block (s := S4096x4096) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x4096.size a
  hwx0_5 : ∀ i : grid0.Coords, EltTy.bits .f32 = 32 ∨ (Rect.block (s := S4096x4096) S1024x1024.size (cc0_transform_5 i) (hinb0_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .i1⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .i1⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S4096x4096, .f32⟩
  | .hbm, ⟨40, _⟩ => ⟨S1x4096, .f32⟩
  | .hbm, ⟨41, _⟩ => ⟨S4096x4096, .f32⟩
  | .hbm, ⟨42, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_call1_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.DenseSpec.lean ====
/-
  The dense layer with sampled weights, as one function of the argument arrays over the extended reals.

  A weight entry is `mu + softplus(rho) · eps`, with `softplus r = max r 0 + log (1 + exp (−|r|))`; an output entry is
  `∑ₙ x[t, n] · weight[o, n] + bias[o]`, the bias sampled the same way. The sum over the contracted axis is taken over
  the naturals below 4096, so that it can be cut into consecutive stretches of 512 with no reindexing: the sum of a
  prefix of `512·(k+1)` terms is the sum of the prefix of `512·k` terms plus the `k`-th stretch. Only associativity
  and commutativity of addition are used, so nothing here asks the entries to be finite.
-/
import Idealize.ShloMosaic.PureOps.Ideal.Laws
import Idealize.ShloMosaic.Lib.ValueIdx

noncomputable section

namespace Cert.DenseSpec

open Idealize.ShloMosaic Idealize.ShloMosaic.ValueIdx

/-- A square matrix of the layer's size and a vector of its width, as the programs index them. -/
abbrev Mat : Type := (⟨2, ![4096, 4096]⟩ : Shape).Idx → EReal
abbrev Row : Type := (⟨1, ![4096]⟩ : Shape).Idx → EReal

/-- `softplus r = max r 0 + log (1 + exp (−|r|))`, the overflow-free form both programs evaluate. -/
def softplus (r : EReal) : EReal := max r 0 + Ideal.log1p (Ideal.exp (-(max r (-r))))

/-- A sampled parameter: mean plus `softplus` of the spread parameter times the noise. -/
def sample (mu rho eps : EReal) : EReal := mu + softplus rho * eps

/-- The `n`-th term of output entry (t, o): `x[t, n] · weight[o, n]`, and zero past the contracted extent. -/
def term (x wmu wrho weps : Mat) (t o : Fin 4096) (n : ℕ) : EReal :=
  if h : n < 4096 then x (ix2 t ⟨n, h⟩) * sample (wmu (ix2 o ⟨n, h⟩)) (wrho (ix2 o ⟨n, h⟩)) (weps (ix2 o ⟨n, h⟩)) else 0

/-- The first `K` terms of output entry (t, o) summed. -/
def prefixSum (x wmu wrho weps : Mat) (t o : Fin 4096) (K : ℕ) : EReal :=
  ∑ n ∈ Finset.range K, term x wmu wrho weps t o n

/-- The layer: entry (t, o) is the whole sum plus the sampled bias at `o`. -/
def dense (x wmu wrho : Mat) (bmu brho : Row) (weps : Mat) (beps : Row) : Mat := fun j =>
  prefixSum x wmu wrho weps (j 0) (j 1) 4096 + sample (bmu (ix1 (j 1))) (brho (ix1 (j 1))) (beps (ix1 (j 1)))

theorem term_of_lt (x wmu wrho weps : Mat) (t o : Fin 4096) (n : ℕ) (h : n < 4096) :
    term x wmu wrho weps t o n
      = x (ix2 t ⟨n, h⟩) * sample (wmu (ix2 o ⟨n, h⟩)) (wrho (ix2 o ⟨n, h⟩)) (weps (ix2 o ⟨n, h⟩)) := dif_pos h

/-- The sum over the whole contracted axis, indexed by `Fin 4096`, is the prefix of all 4096 terms. -/
theorem sum_fin_eq_prefixSum (x wmu wrho weps : Mat) (t o : Fin 4096) :
    ∑ k : Fin 4096, x (ix2 t k) * sample (wmu (ix2 o k)) (wrho (ix2 o k)) (weps (ix2 o k))
      = prefixSum x wmu wrho weps t o 4096 := by
  unfold prefixSum
  rw [Finset.sum_range]
  exact Finset.sum_congr rfl fun k _ => (term_of_lt x wmu wrho weps t o k.val k.isLt).symm

/-- Nothing summed is zero. -/
theorem prefixSum_zero (x wmu wrho weps : Mat) (t o : Fin 4096) : prefixSum x wmu wrho weps t o 0 = 0 :=
  Finset.sum_range_zero _

/-- One more stretch of 512 terms: the prefix of `512·k + 512` terms is the prefix of `512·k` terms plus the stretch. -/
theorem prefixSum_stretch (x wmu wrho weps : Mat) (t o : Fin 4096) (k : ℕ) :
    prefixSum x wmu wrho weps t o (512 * k + 512)
      = prefixSum x wmu wrho weps t o (512 * k) + ∑ l : Fin 512, term x wmu wrho weps t o (512 * k + l.val) := by
  unfold prefixSum
  rw [Finset.sum_range_add]
  exact congrArg _ (Finset.sum_range fun l => term x wmu wrho weps t o (512 * k + l))

/-- The comparison of a value with itself for inequality never holds on the extended reals, so the guarded form
    `if r ≠ r then r + 0 else max r 0 + log (1 + exp (0 − |r − 0|))` is `softplus r`. -/
theorem guarded_sub_eq_softplus (p : CmpFPredicate) (hp : p = .one ∨ p = .une) (r : EReal) :
    Scalar.select (Ideal.cmp p (r - 0) (r - 0)) (r + 0)
        (max r 0 + Ideal.log1p (Ideal.exp (0 - max (r - 0) (-(r - 0))))) = softplus r := by
  have hc : Ideal.cmp p (r - 0) (r - 0) = 0#1 := by
    rcases hp with rfl | rfl <;> simp [Ideal.cmp]
  rw [hc, select_zero, sub_zero, zero_sub]
  rfl

/-- The same with the negation written as such. -/
theorem guarded_neg_eq_softplus (p : CmpFPredicate) (hp : p = .one ∨ p = .une) (r : EReal) :
    Scalar.select (Ideal.cmp p (r - 0) (r - 0)) (r + 0)
        (max r 0 + Ideal.log1p (Ideal.exp (-(max (r - 0) (-(r - 0)))))) = softplus r := by
  have hc : Ideal.cmp p (r - 0) (r - 0) = 0#1 := by
    rcases hp with rfl | rfl <;> simp [Ideal.cmp]
  rw [hc, select_zero, sub_zero]
  rfl

end Cert.DenseSpec

end
-- ==== Proof.RefDense.lean ====
/-
  The reference program's result is the layer function of its arguments.

  Read one operation at a time: the weight matrix it builds is the sampled weight entry by entry (its softplus is the
  guarded form with the negation written out, which is `softplus` on the extended reals), the bias vector likewise,
  the contraction of the input's second axis with the weight's second axis is the sum over the whole contracted axis,
  and the bias is spread over the rows.
-/
import proofs.«117726_j8169027797260_1_alg».proof.Proof.Gen.ReferenceIdeal.Read
import proofs.«117726_j8169027797260_1_alg».proof.Proof.DenseSpec

noncomputable section

open Idealize.ShloMosaic Idealize.ShloMosaic.TcCoe Idealize.ShloMosaic.ValueIdx

namespace Cert.ReferenceIdeal.RefDense

open Cert.ReferenceIdeal Cert.ReferenceIdeal.Read Cert.DenseSpec

/-- The weight matrix, entry by entry. -/
theorem weight_at (x1 x2 x5 : (⟨S4096x4096, .f32⟩ : BufTy).Contents (Elt Ideal)) (i : S4096x4096.Idx) :
    val_main_v2 (F := Ideal) x1 x2 x5 i = sample (x1 i) (x2 i) (x5 i) := by
  simp only [val_main_v2_apply, val_main_v1_apply, val_main_v0_apply, val_main_call0_v4_apply, val_main_call0_v6_apply, val_main_call0_v11_apply, val_main_call0_v1_apply, val_main_call0_v10_apply, val_main_call0_v9_apply, val_main_call0_v8_apply, val_main_call0_v7_apply, val_main_call0_v3_apply, val_main_call0_v0_apply, val_main_call0_v2_apply, val_main_call0_v5_apply, val_main_call0_cst_apply,
    Ideal.addf_def, Ideal.mulf_def, Ideal.subf_def, Ideal.maximumf_def, Ideal.hostUnary_exp_def, Ideal.hostUnary_log1p_def, Ideal.hostNegf_def, Ideal.hostAbsf_def, Ideal.negf_def, Ideal.absf_def, Ideal.cmpf_def, Ideal.ofBits_def, Ideal.ofBits_zero_f32]
  rw [guarded_neg_eq_softplus .une (Or.inr rfl)]
  rfl

/-- The bias vector, entry by entry. -/
theorem bias_at (x3 x4 x6 : (⟨S4096, .f32⟩ : BufTy).Contents (Elt Ideal)) (i : S4096.Idx) :
    val_main_v5 (F := Ideal) x3 x4 x6 i = sample (x3 i) (x4 i) (x6 i) := by
  simp only [val_main_v5_apply, val_main_v4_apply, val_main_v3_apply, val_main_call1_v4_apply, val_main_call1_v6_apply, val_main_call1_v11_apply, val_main_call1_v1_apply, val_main_call1_v10_apply, val_main_call1_v9_apply, val_main_call1_v8_apply, val_main_call1_v7_apply, val_main_call1_v3_apply, val_main_call1_v0_apply, val_main_call1_v2_apply, val_main_call1_v5_apply, val_main_call1_cst_apply,
    Ideal.addf_def, Ideal.mulf_def, Ideal.subf_def, Ideal.maximumf_def, Ideal.hostUnary_exp_def, Ideal.hostUnary_log1p_def, Ideal.hostNegf_def, Ideal.hostAbsf_def, Ideal.negf_def, Ideal.absf_def, Ideal.cmpf_def, Ideal.ofBits_def, Ideal.ofBits_zero_f32]
  rw [guarded_neg_eq_softplus .une (Or.inr rfl)]
  rfl

/-- The reference's result is `dense` of its arguments. -/
theorem result_eq (x0 x1 x2 : (⟨S4096x4096, .f32⟩ : BufTy).Contents (Elt Ideal)) (x3 x4 : (⟨S4096, .f32⟩ : BufTy).Contents (Elt Ideal)) (x5 : (⟨S4096x4096, .f32⟩ : BufTy).Contents (Elt Ideal)) (x6 : (⟨S4096, .f32⟩ : BufTy).Contents (Elt Ideal)) :
    val_main_v9 (F := Ideal) x0 x1 x2 x3 x4 x5 x6 = dense x0 x1 x2 x3 x4 x5 x6 := by
  funext i
  obtain ⟨t, o, rfl⟩ : ∃ (t o : Fin 4096), i = ix2 t o := ⟨i 0, i 1, eq_ix2 i⟩
  have hl : ∀ k : Fin 4096, lidx_main_v6 (ix2 t o) k = ix2 t k := fun k => funext fun a => by
    match a with
    | ⟨0, _⟩ => rfl
    | ⟨1, _⟩ => rfl
  have hr : ∀ k : Fin 4096, ridx_main_v6 (ix2 t o) k = ix2 o k := fun k => funext fun a => by
    match a with
    | ⟨0, _⟩ => rfl
    | ⟨1, _⟩ => rfl
  have hb : idx_main_v7 (idx_main_v8 (ix2 t o)) = ix1 o := funext fun a => by
    match a with
    | ⟨0, _⟩ => rfl
  rw [val_main_v9_apply, val_main_v6_apply, val_main_v8_apply, val_main_v7_apply, bias_at, hb]
  simp only [weight_at, hl, hr]
  rw [Ideal.addf_def, sum_fin_eq_prefixSum]
  rfl

end Cert.ReferenceIdeal.RefDense

end
-- ==== Proof.BodyPieces.lean ====
/-
  What one run of the body leaves behind, case by case, as the body's own arithmetic.

  The body keeps a running block in a scratch buffer. At the first step along the contracted axis it stores a zero
  block, reads it back and adds this step's product of blocks; at a later step it adds the product to what the step
  before left; at the last step it also adds the bias row to the running block and stores that as the output block.
  Each lemma says that what a case leaves is one of the body's three stored values applied to the blocks it loaded.
-/
import proofs.«117726_j8169027797260_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The origin of a rank-two block. -/
theorem origin : (![0, 0] : Fin 2 → Nat) = fun _ => 0 := funext fun a => by fin_cases a <;> rfl

/-- First step: the zero block, then this step's product added to it. -/
theorem scratch_first (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .f32) (h5 : a5.IsWhole) (a6 : Memref sig .tc .vmem S1024x512 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : cond0_0 i) (hc1 : ¬cond0_1 i) (xin : Vec F S1024x512 .f32) (wmu : Vec F S1024x512 .f32) (wrho : Vec F S1024x512 .f32) (weps : Vec F S1024x512 .f32) (bias : Vec F S1x1024 .f32) :
    sout0_A_0 c i a3 h3 a4 h4 a5 h5 a6 h6 a7 h7 a8 h8 a9 h9 hc0 hc1 xin wmu wrho weps bias = k0_pay2 wmu wrho weps xin (k0_pay1 (F := F)) := by
  unfold sout0_A_0
  rw [View.read_writes_eq_canon _ _ _ (scover0_A_0 c i a3 h3 a4 h4 a5 h5 a6 h6 a7 h7 a8 h8 a9 h9 hc0 hc1 xin wmu wrho weps bias)]
  unfold kernelRun0_A
  dsimp only
  sl_unfold_words
  rw [View.canon_cons_unit_zero (S := S1024x1024) origin, View.readCov_unit_zero (S := S1024x1024) _ origin]
  simp only [View.readAt_eq_ld, h3.read_unread, h4.read_unread, h5.read_unread, h6.read_unread,
    View.ld_unit_zero (S := S1024x512) origin]

/-- A middle step: this step's product added to what the step before left. -/
theorem scratch_middle (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .f32) (h5 : a5.IsWhole) (a6 : Memref sig .tc .vmem S1024x512 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : ¬cond0_1 i) (xin : Vec F S1024x512 .f32) (wmu : Vec F S1024x512 .f32) (wrho : Vec F S1024x512 .f32) (weps : Vec F S1024x512 .f32) (bias : Vec F S1x1024 .f32) (acc : Vec F S1024x1024 .f32) :
    sout0_B_0 c i a3 h3 a4 h4 a5 h5 a6 h6 a7 h7 a8 h8 a9 h9 hc0 hc1 xin wmu wrho weps bias acc = k0_pay2 wmu wrho weps xin acc := by
  unfold sout0_B_0
  rw [View.read_writes_eq_canon _ _ _ (scover0_B_0 c i a3 h3 a4 h4 a5 h5 a6 h6 a7 h7 a8 h8 a9 h9 hc0 hc1 xin wmu wrho weps bias acc)]
  unfold kernelRun0_B
  dsimp only
  sl_unfold_words
  rw [View.canon_unit_zero origin]
  simp only [View.readAt_eq_ld, h3.read_unread, h4.read_unread, h5.read_unread, h6.read_unread, h9.read_unread,
    View.ld_unit_zero (S := S1024x512) origin, View.ld_unit_zero (S := S1024x1024) origin]

/-- The last step leaves the same running block in the scratch, -/
theorem scratch_last (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .f32) (h5 : a5.IsWhole) (a6 : Memref sig .tc .vmem S1024x512 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : cond0_1 i) (xin : Vec F S1024x512 .f32) (wmu : Vec F S1024x512 .f32) (wrho : Vec F S1024x512 .f32) (weps : Vec F S1024x512 .f32) (bias : Vec F S1x1024 .f32) (acc : Vec F S1024x1024 .f32) :
    sout0_C_0 c i a3 h3 a4 h4 a5 h5 a6 h6 a7 h7 a8 h8 a9 h9 hc0 hc1 xin wmu wrho weps bias acc = k0_pay2 wmu wrho weps xin acc := by
  unfold sout0_C_0
  rw [View.read_writes_eq_canon _ _ _ (scover0_C_0 c i a3 h3 a4 h4 a5 h5 a6 h6 a7 h7 a8 h8 a9 h9 hc0 hc1 xin wmu wrho weps bias acc)]
  unfold kernelRun0_C
  dsimp only
  sl_unfold_words
  rw [View.canon_unit_zero origin]
  simp only [View.readAt_eq_ld, h3.read_unread, h4.read_unread, h5.read_unread, h6.read_unread, h9.read_unread,
    View.ld_unit_zero (S := S1024x512) origin, View.ld_unit_zero (S := S1024x1024) origin]

/-- and stores the running block plus the bias row as the output block. -/
theorem output_last (c : Dev nD) (i : grid0.Coords) (a3 : Memref sig .tc .vmem S1024x512 .f32) (h3 : a3.IsWhole) (a4 : Memref sig .tc .vmem S1024x512 .f32) (h4 : a4.IsWhole) (a5 : Memref sig .tc .vmem S1024x512 .f32) (h5 : a5.IsWhole) (a6 : Memref sig .tc .vmem S1024x512 .f32) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : cond0_1 i) (xin : Vec F S1024x512 .f32) (wmu : Vec F S1024x512 .f32) (wrho : Vec F S1024x512 .f32) (weps : Vec F S1024x512 .f32) (bias : Vec F S1x1024 .f32) (acc : Vec F S1024x1024 .f32) :
    out0_C_5 c i a3 h3 a4 h4 a5 h5 a6 h6 a7 h7 a8 h8 a9 h9 hc0 hc1 xin wmu wrho weps bias acc = k0_pay3 (k0_pay2 wmu wrho weps xin acc) bias := by
  unfold out0_C_5
  rw [View.read_writes_eq_canon _ _ _ (cover0_C_5 c i a3 h3 a4 h4 a5 h5 a6 h6 a7 h7 a8 h8 a9 h9 hc0 hc1 xin wmu wrho weps bias acc)]
  unfold kernelRun0_C
  dsimp only
  sl_unfold_words
  rw [View.canon_unit_zero origin]
  simp only [View.readAt_eq_ld, h3.read_unread, h4.read_unread, h5.read_unread, h6.read_unread, h7.read_unread, h9.read_unread,
    View.ld_unit_zero (S := S1024x512) origin, View.ld_unit_zero (S := S1024x1024) origin, View.ld_unit_zero (S := S1x1024) origin,
    View.readCov_unit_zero (S := S1024x1024) _ origin]

end Cert.KernelIdeal.Pieces

end
-- ==== Proof.BodyAt.lean ====
/-
  The body's three stored values, read at one entry over the extended reals.

  The zero block is zero everywhere. One step's value at entry (p, q) is the running block's entry plus
  `∑ₗ x[p, l] · weight[q, l]` over the step's 512 columns: the two narrowings to a shorter float format are the
  identity on the extended reals, the product into a zero accumulator is the plain sum over the contracted axis (both
  operands are read along their second axis), and the guarded softplus is `softplus`. The output value adds the bias
  row's entry `q` to every row.
-/
import proofs.«117726_j8169027797260_1_alg».proof.Proof.Gen.KernelIdeal.Frame
import proofs.«117726_j8169027797260_1_alg».proof.Proof.DenseSpec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.BodyAt

open Cert.KernelIdeal Cert.KernelIdeal.Gen Cert.DenseSpec

/-- The zero block. -/
theorem zero_block_at (j : S1024x1024.Idx) : k0_pay1 (F := Ideal) j = 0 := by
  unfold k0_pay1
  rw [shapeCast_self]
  exact Ideal.ofBits_zero_f32

/-- Where the step's product reads its left operand: row from the output's row, -/
theorem lhs_row (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- column from the contracted index; -/
theorem lhs_col (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
/-- and its right operand: row from the output's column, -/
theorem rhs_row (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- column from the contracted index. -/
theorem rhs_col (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The product of a [1024 × 512] block with the transpose of another into zero, at entry (p, q): `∑ₗ a[p, l] · b[q, l]`. -/
theorem product_at (a b : FVec Ideal S1024x512 .bf16) (p q : Fin 1024) :
    matmul dot_S1024x512_S1024x512_S1024x1024_1_1_0_0_n_n none a b (constant S1024x1024 .f32 0x00000000#32) (ix2 p q)
      = ∑ l : Fin 512, a (ix2 p l) * b (ix2 q l) := by
  simp only [matmul]
  rw [Ideal.matmul_constant_zero_apply, ← Equiv.sum_comp (contrEquiv1 dot_S1024x512_S1024x512_S1024x1024_1_1_0_0_n_n 512 rfl rfl).symm]
  refine Finset.sum_congr rfl fun l _ => ?_
  have hl := contrEquiv1_symm_val dot_S1024x512_S1024x512_S1024x1024_1_1_0_0_n_n 512 rfl rfl l
  have el : dot_S1024x512_S1024x512_S1024x1024_1_1_0_0_n_n.lhsIdx (ix2 p q) ((contrEquiv1 dot_S1024x512_S1024x512_S1024x1024_1_1_0_0_n_n 512 rfl rfl).symm l) = ix2 p l := funext fun d => Fin.ext (by
    match d with
    | ⟨0, _⟩ => exact lhs_row _ _
    | ⟨1, _⟩ => exact (lhs_col _ _).trans hl)
  have er : dot_S1024x512_S1024x512_S1024x1024_1_1_0_0_n_n.rhsIdx (ix2 p q) ((contrEquiv1 dot_S1024x512_S1024x512_S1024x1024_1_1_0_0_n_n 512 rfl rfl).symm l) = ix2 q l := funext fun d => Fin.ext (by
    match d with
    | ⟨0, _⟩ => exact rhs_row _ _
    | ⟨1, _⟩ => exact (rhs_col _ _).trans hl)
  rw [el, er]

/-- One step: the running block's entry plus the step's 512 products of an input entry with a sampled weight. -/
theorem step_at (wmu wrho weps xin : FVec Ideal S1024x512 .f32) (acc : FVec Ideal S1024x1024 .f32) (p q : Fin 1024) :
    k0_pay2 (F := Ideal) wmu wrho weps xin acc (ix2 p q)
      = acc (ix2 p q) + ∑ l : Fin 512, xin (ix2 p l) * sample (wmu (ix2 q l)) (wrho (ix2 q l)) (weps (ix2 q l)) := by
  unfold k0_pay2
  rw [shapeCast_self]
  show acc (ix2 p q) + matmul dot_S1024x512_S1024x512_S1024x1024_1_1_0_0_n_n none _ _ (constant S1024x1024 .f32 0x00000000#32) (ix2 p q) = _
  rw [product_at]
  refine congrArg (acc (ix2 p q) + ·) (Finset.sum_congr rfl fun l _ => ?_)
  show xin (ix2 p l) * (wmu (ix2 q l) + Scalar.select (Ideal.cmp .one (wrho (ix2 q l) - Ideal.ofBits .f32 0x00000000#32) (wrho (ix2 q l) - Ideal.ofBits .f32 0x00000000#32))
      (wrho (ix2 q l) + Ideal.ofBits .f32 0x00000000#32)
      (max (wrho (ix2 q l)) (Ideal.ofBits .f32 0x00000000#32) + Ideal.log1p (Ideal.exp (Ideal.ofBits .f32 0x00000000#32 - max (wrho (ix2 q l) - Ideal.ofBits .f32 0x00000000#32) (-(wrho (ix2 q l) - Ideal.ofBits .f32 0x00000000#32))))) * weps (ix2 q l)) = _
  rw [Ideal.ofBits_zero_f32, guarded_sub_eq_softplus .one (Or.inl rfl)]
  rfl

/-- The output value: the running block's entry plus the bias row's entry in the same column. -/
theorem output_at (acc : FVec Ideal S1024x1024 .f32) (bias : FVec Ideal S1x1024 .f32) (p q : Fin 1024) :
    k0_pay3 (F := Ideal) acc bias (ix2 p q) = acc (ix2 p q) + bias (ix2 0 q) := by
  unfold k0_pay3
  rw [shapeCast_self]
  show acc (ix2 p q) + broadcastTo S1024x1024 bias broadcasts_S1x1024_S1024x1024 (ix2 p q) = _
  rw [broadcastTo_apply bias broadcasts_S1x1024_S1024x1024 (ix2 p q) (ix2 0 q) (fun d => by
    match d with
    | ⟨0, _⟩ => rfl
    | ⟨1, _⟩ => rfl)]

end Cert.KernelIdeal.BodyAt

end
-- ==== Proof.Blocks.lean ====
/-
  Where a grid point's blocks sit in the whole arrays.

  The grid has 4 · 4 · 8 = 128 points; point `t` works on row block `t / 32`, column block `(t / 8) mod 4` and depth
  block `t mod 8` (the position along the contracted axis). An input block's entry is the whole array's entry at the
  block's offset plus the entry's place in the block: rows in steps of 1024, depth in steps of 512.
-/
import proofs.«117726_j8169027797260_1_alg».proof.Proof.Gen.KernelIdeal.Frame
import proofs.«117726_j8169027797260_1_alg».proof.Proof.DenseSpec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen Cert.DenseSpec

variable (m : (ℓ : Loc nD τ sig) → Buf (Elt Ideal) ℓ)

theorem point_lt (t : Fin cfg0.N) : t.val < 128 := lt_of_lt_of_eq t.isLt N_0

/-- The five input blocks of point `t`, at their literal shapes: the input's, the weights' means, spread parameters
    and noise, and the bias row's. -/
abbrev xblk (c : Dev nD) (t : Fin cfg0.N) : FVec Ideal S1024x512 .f32 := iblk m c 0 t
abbrev wmublk (c : Dev nD) (t : Fin cfg0.N) : FVec Ideal S1024x512 .f32 := iblk m c 1 t
abbrev wrhoblk (c : Dev nD) (t : Fin cfg0.N) : FVec Ideal S1024x512 .f32 := iblk m c 2 t
abbrev wepsblk (c : Dev nD) (t : Fin cfg0.N) : FVec Ideal S1024x512 .f32 := iblk m c 3 t
abbrev biasblk (c : Dev nD) (t : Fin cfg0.N) : FVec Ideal S1x1024 .f32 := iblk m c 4 t

/-- The whole-array row of local row `p` at point `t`, -/
def rowOf (t : Fin cfg0.N) (p : Fin 1024) : Fin 4096 :=
  ⟨1024 * (t.val / 32) + p.val, by have := point_lt t; have := p.isLt; omega⟩
/-- the whole-array column of local column `q`, -/
def colOf (t : Fin cfg0.N) (q : Fin 1024) : Fin 4096 :=
  ⟨1024 * (t.val / 8 % 4) + q.val, by have := q.isLt; omega⟩
/-- and the place along the contracted axis of local depth `l`. -/
def depthOf (t : Fin cfg0.N) (l : Fin 512) : Fin 4096 :=
  ⟨512 * (t.val % 8) + l.val, by have := l.isLt; omega⟩

/-- The six index maps at every point of the grid. -/
theorem index_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = t.val % 8
    ∧ win0_3.index t (0 : Fin 2) = t.val / 8 % 4 ∧ win0_3.index t (1 : Fin 2) = t.val % 8
    ∧ win0_4.index t (0 : Fin 2) = 0 ∧ win0_4.index t (1 : Fin 2) = t.val / 8 % 4
    ∧ win0_5.index t (0 : Fin 2) = t.val / 32 ∧ win0_5.index t (1 : Fin 2) = t.val / 8 % 4 :=
  (by decide +kernel : ∀ t : Fin grid0.N, _)

/-- The input block: rows of the row block, depth of the depth block. -/
theorem input_at (c : Dev nD) (t : Fin cfg0.N) (p : Fin 1024) (l : Fin 512) :
    xblk m c t (ix2 p l)
      = (V m c main_arg0 : FVec Ideal S4096x4096 .f32) (ix2 (rowOf t p) (depthOf t l)) := by
  obtain ⟨e00, e01, e10, e11, e20, e21, e30, e31, e40, e41, e50, e51⟩ := index_facts t
  show V m c main_arg0 (((cfg0.win 0).blk t).view.emb (ix2 p l)) = V m c main_arg0 (ix2 (rowOf t p) (depthOf t l))
  refine congrArg (V m c main_arg0) (funext fun a => Fin.ext ?_)
  match a with
  | ⟨0, _⟩ => show win0_0.index t (0 : Fin 2) * 1024 + 1 * p.val = 1024 * (t.val / 32) + p.val; omega
  | ⟨1, _⟩ => show win0_0.index t (1 : Fin 2) * 512 + 1 * l.val = 512 * (t.val % 8) + l.val; omega

/-- The weight means' block: rows of the column block, depth of the depth block. -/
theorem wmu_at (c : Dev nD) (t : Fin cfg0.N) (q : Fin 1024) (l : Fin 512) :
    wmublk m c t (ix2 q l)
      = (V m c main_arg1 : FVec Ideal S4096x4096 .f32) (ix2 (colOf t q) (depthOf t l)) := by
  obtain ⟨e00, e01, e10, e11, e20, e21, e30, e31, e40, e41, e50, e51⟩ := index_facts t
  show V m c main_arg1 (((cfg0.win 1).blk t).view.emb (ix2 q l)) = V m c main_arg1 (ix2 (colOf t q) (depthOf t l))
  refine congrArg (V m c main_arg1) (funext fun a => Fin.ext ?_)
  match a with
  | ⟨0, _⟩ => show win0_1.index t (0 : Fin 2) * 1024 + 1 * q.val = 1024 * (t.val / 8 % 4) + q.val; omega
  | ⟨1, _⟩ => show win0_1.index t (1 : Fin 2) * 512 + 1 * l.val = 512 * (t.val % 8) + l.val; omega

/-- The weight spreads' block, likewise. -/
theorem wrho_at (c : Dev nD) (t : Fin cfg0.N) (q : Fin 1024) (l : Fin 512) :
    wrhoblk m c t (ix2 q l)
      = (V m c main_arg2 : FVec Ideal S4096x4096 .f32) (ix2 (colOf t q) (depthOf t l)) := by
  obtain ⟨e00, e01, e10, e11, e20, e21, e30, e31, e40, e41, e50, e51⟩ := index_facts t
  show V m c main_arg2 (((cfg0.win 2).blk t).view.emb (ix2 q l)) = V m c main_arg2 (ix2 (colOf t q) (depthOf t l))
  refine congrArg (V m c main_arg2) (funext fun a => Fin.ext ?_)
  match a with
  | ⟨0, _⟩ => show win0_2.index t (0 : Fin 2) * 1024 + 1 * q.val = 1024 * (t.val / 8 % 4) + q.val; omega
  | ⟨1, _⟩ => show win0_2.index t (1 : Fin 2) * 512 + 1 * l.val = 512 * (t.val % 8) + l.val; omega

/-- The weight noise's block, likewise. -/
theorem weps_at (c : Dev nD) (t : Fin cfg0.N) (q : Fin 1024) (l : Fin 512) :
    wepsblk m c t (ix2 q l)
      = (V m c main_arg5 : FVec Ideal S4096x4096 .f32) (ix2 (colOf t q) (depthOf t l)) := by
  obtain ⟨e00, e01, e10, e11, e20, e21, e30, e31, e40, e41, e50, e51⟩ := index_facts t
  show V m c main_arg5 (((cfg0.win 3).blk t).view.emb (ix2 q l)) = V m c main_arg5 (ix2 (colOf t q) (depthOf t l))
  refine congrArg (V m c main_arg5) (funext fun a => Fin.ext ?_)
  match a with
  | ⟨0, _⟩ => show win0_3.index t (0 : Fin 2) * 1024 + 1 * q.val = 1024 * (t.val / 8 % 4) + q.val; omega
  | ⟨1, _⟩ => show win0_3.index t (1 : Fin 2) * 512 + 1 * l.val = 512 * (t.val % 8) + l.val; omega

/-- The bias row's block: the one row, columns of the column block. -/
theorem bias_at (c : Dev nD) (t : Fin cfg0.N) (z : Fin 1) (q : Fin 1024) :
    biasblk m c t (ix2 z q)
      = (V m c main_v3 : FVec Ideal S1x4096 .f32) (ix2 0 (colOf t q)) := by
  obtain ⟨e00, e01, e10, e11, e20, e21, e30, e31, e40, e41, e50, e51⟩ := index_facts t
  show V m c main_v3 (((cfg0.win 4).blk t).view.emb (ix2 z q)) = V m c main_v3 (ix2 0 (colOf t q))
  refine congrArg (V m c main_v3) (funext fun a => Fin.ext ?_)
  match a with
  | ⟨0, _⟩ => show win0_4.index t (0 : Fin 2) * 1 + 1 * z.val = 0; have := z.isLt; omega
  | ⟨1, _⟩ => show win0_4.index t (1 : Fin 2) * 1024 + 1 * q.val = 1024 * (t.val / 8 % 4) + q.val; omega

/-- The output block: entry (p, q) of point `t`'s block is the whole array's entry (row of p, column of q). -/
theorem output_place (t : Fin cfg0.N) (p q : Fin 1024) :
    ((cfg0.win 5).blk t).view.emb (ix2 p q) = ix2 (rowOf t p) (colOf t q) := by
  obtain ⟨e00, e01, e10, e11, e20, e21, e30, e31, e40, e41, e50, e51⟩ := index_facts t
  refine funext fun a => Fin.ext ?_
  match a with
  | ⟨0, _⟩ => show win0_5.index t (0 : Fin 2) * 1024 + 1 * p.val = 1024 * (t.val / 32) + p.val; omega
  | ⟨1, _⟩ => show win0_5.index t (1 : Fin 2) * 1024 + 1 * q.val = 1024 * (t.val / 8 % 4) + q.val; omega

end Cert.KernelIdeal.Blocks

end
-- ==== Proof.HostBias.lean ====
/-
  The bias row the kernel region finds.

  Before the region the program samples the bias on the host — mean plus softplus of the spread parameter times the
  noise, the softplus in its guarded form with the negation written out — and lays the 4096 entries out as one row.
  Entry (0, o) of that row is `sample` of the three bias arguments at `o`.
-/
import proofs.«117726_j8169027797260_1_alg».proof.Proof.Gen.KernelIdeal.Frame
import proofs.«117726_j8169027797260_1_alg».proof.Proof.DenseSpec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.StableHlo Idealize.ShloMosaic.ValueIdx

namespace Cert.KernelIdeal.HostBias

open Cert.KernelIdeal Cert.KernelIdeal.Gen Cert.DenseSpec

variable {F : FTy → Type} [FloatOps F]

/-- The vector of zeros the host's softplus compares and adds with. -/
abbrev zeros : FVec F S4096 .f32 := broadcastInDim S4096 ![] bcast_S_S4096 (constant S_ .f32 0x00000000#32)

/-- The host's softplus of a vector, operation by operation. -/
def softplusVec (r : FVec F S4096 .f32) : FVec F S4096 .f32 :=
  select (cmpf .une (subf r zeros) (subf r zeros)) (addf r zeros)
    (addf (maximumf r zeros) (Host.log1p (Host.exp (Host.negf (Host.absf (subf r zeros))))))

/-- What the region finds in the bias row: the sampled bias, reshaped from a vector to one row. -/
theorem row_found (m : (ℓ : Loc nD τ sig) → Buf (Elt F) ℓ) (c : Dev nD) :
    (V m c main_v3 : (⟨S1x4096, .f32⟩ : BufTy).Contents (Elt F))
      = shapeCast S1x4096 (addf (m ((c : Thread nD τ).loc main_arg3))
          (mulf (softplusVec (m ((c : Thread nD τ).loc main_arg4))) (m ((c : Thread nD τ).loc main_arg6)))) shapeCasts_S4096_S1x4096 := by
  dsimp only [V]
  simp only [hostOps0, hostOps0_1, List.flatten_cons, List.flatten_nil, List.append_nil, List.cons_append, List.nil_append]
  after_results_simp
  rfl

/-- On the extended reals the host's softplus of a vector is `softplus` entry by entry. -/
theorem softplusVec_at (r : FVec Ideal S4096 .f32) (i : S4096.Idx) : softplusVec r i = softplus (r i) := by
  have hz : (zeros (F := Ideal)) i = 0 := by
    show broadcastInDim S4096 ![] bcast_S_S4096 (constant (F := Ideal) S_ .f32 0x00000000#32) i = 0
    rw [broadcastInDim_apply _ bcast_S_S4096 _ i (fun a => a.elim0) (fun a => a.elim0)]
    exact Ideal.ofBits_zero_f32
  show Scalar.select (Ideal.cmp .une (r i - zeros (F := Ideal) i) (r i - zeros (F := Ideal) i)) (r i + zeros (F := Ideal) i)
      (max (r i) (zeros (F := Ideal) i) + Ideal.log1p (Ideal.exp (-(max (r i - zeros (F := Ideal) i) (-(r i - zeros (F := Ideal) i)))))) = _
  rw [hz]
  exact guarded_neg_eq_softplus .une (Or.inr rfl) (r i)

/-- Entry (0, o) of the row the region finds is the sampled bias at `o`. -/
theorem row_found_at (m : (ℓ : Loc nD τ sig) → Buf (Elt Ideal) ℓ) (c : Dev nD) (o : Fin 4096) :
    (V m c main_v3 : (⟨S1x4096, .f32⟩ : BufTy).Contents (Elt Ideal)) (ix2 0 o)
      = sample ((m ((c : Thread nD τ).loc main_arg3) : FVec Ideal S4096 .f32) (ix1 o))
          ((m ((c : Thread nD τ).loc main_arg4) : FVec Ideal S4096 .f32) (ix1 o))
          ((m ((c : Thread nD τ).loc main_arg6) : FVec Ideal S4096 .f32) (ix1 o)) := by
  rw [row_found]
  rw [shapeCast_apply _ shapeCasts_S4096_S1x4096 (ix2 0 o) (ix1 o) (by
    rw [Shape.rowMajor_val_one, Shape.rowMajor_val_two]
    show o.val = 0 * 4096 + o.val
    omega)]
  show _ + softplusVec _ (ix1 o) * _ = _
  rw [softplusVec_at]
  rfl

end Cert.KernelIdeal.HostBias

end
-- ==== Proof.Accumulate.lean ====
/-
  The running block, point by point.

  Along the contracted axis the body adds one stretch of 512 products per point into a scratch block that it clears at
  the first of the eight points. So after point `t` the scratch holds, at entry (p, q), the sum of the first
  `512 · (t mod 8 + 1)` terms of the output entry (row of p, column of q): at the first point zero plus the first
  stretch, afterwards what the point before left plus the next stretch. The point before a later point works on the
  same row and column blocks, so its sum is over the same entry. Proved by induction on the point.
-/
import proofs.«117726_j8169027797260_1_alg».proof.Proof.Gen.KernelIdeal.Frame
import proofs.«117726_j8169027797260_1_alg».proof.Proof.DenseSpec
import proofs.«117726_j8169027797260_1_alg».proof.Proof.BodyPieces
import proofs.«117726_j8169027797260_1_alg».proof.Proof.BodyAt
import proofs.«117726_j8169027797260_1_alg».proof.Proof.Blocks

noncomputable section

open Idealize.ShloMosaic Idealize.ShloMosaic.TcCoe Idealize.SL.Sem Idealize.ShloMosaic.ValueIdx

namespace Cert.KernelIdeal.Accumulate

open Cert.KernelIdeal Cert.KernelIdeal.Gen Cert.DenseSpec Cert.KernelIdeal.Blocks Cert.KernelIdeal.Pieces Cert.KernelIdeal.BodyAt

variable (m : (ℓ : Loc nD τ sig) → Buf (Elt Ideal) ℓ)

/-- The four matrices the region finds: the input, and the weights' means, spread parameters and noise. -/
abbrev xs (c : Dev nD) : Mat := V m c main_arg0
abbrev wmus (c : Dev nD) : Mat := V m c main_arg1
abbrev wrhos (c : Dev nD) : Mat := V m c main_arg2
abbrev wepss (c : Dev nD) : Mat := V m c main_arg5

/-- What the scratch holds after point `t`: at (p, q) the first `512 · (t mod 8 + 1)` terms of the entry's sum. -/
def running (c : Dev nD) (t : Fin cfg0.N) : FVec Ideal S1024x1024 .f32 := fun j =>
  prefixSum (xs m c) (wmus m c) (wrhos m c) (wepss m c) (rowOf t (j 0)) (colOf t (j 1)) (512 * (t.val % 8) + 512)

theorem running_at (c : Dev nD) (t : Fin cfg0.N) (p q : Fin 1024) :
    running m c t (ix2 p q) = prefixSum (xs m c) (wmus m c) (wrhos m c) (wepss m c) (rowOf t p) (colOf t q) (512 * (t.val % 8) + 512) := rfl

/-- One point's 512 products are the terms of its stretch of the entry's sum. -/
theorem stretch_eq (c : Dev nD) (t : Fin cfg0.N) (p q : Fin 1024) :
    ∑ l : Fin 512, xblk m c t (ix2 p l)
        * sample (wmublk m c t (ix2 q l)) (wrhoblk m c t (ix2 q l)) (wepsblk m c t (ix2 q l))
      = ∑ l : Fin 512, term (xs m c) (wmus m c) (wrhos m c) (wepss m c) (rowOf t p) (colOf t q) (512 * (t.val % 8) + l.val) := by
  refine Finset.sum_congr rfl fun l _ => ?_
  rw [input_at, wmu_at, wrho_at, weps_at, term_of_lt _ _ _ _ _ _ (512 * (t.val % 8) + l.val) (depthOf t l).isLt]
  rfl

theorem pred_lt (t : Fin cfg0.N) : t.val - 1 < cfg0.N := Nat.lt_of_le_of_lt (Nat.sub_le _ _) t.isLt

/-- The point before a later point of a run has the same row and column blocks, and one stretch fewer. -/
theorem pred_geometry (t : Fin cfg0.N) (h0 : ¬t.val % 8 = 0) (p q : Fin 1024) :
    rowOf ⟨t.val - 1, pred_lt t⟩ p = rowOf t p ∧ colOf ⟨t.val - 1, pred_lt t⟩ q = colOf t q
      ∧ 512 * ((t.val - 1) % 8) + 512 = 512 * (t.val % 8) := by
  have := point_lt t
  refine ⟨Fin.ext ?_, Fin.ext ?_, ?_⟩
  · show 1024 * ((t.val - 1) / 32) + p.val = 1024 * (t.val / 32) + p.val
    omega
  · show 1024 * ((t.val - 1) / 8 % 4) + q.val = 1024 * (t.val / 8 % 4) + q.val
    omega
  · omega

/-- The first point of a run: zero plus the first stretch. -/
theorem first_step (c : Dev nD) (t : Fin cfg0.N) (h0 : t.val % 8 = 0) (h1 : ¬t.val % 8 = 7) :
    (outsAt0 m c t.val t.isLt).2 = running m c t := by
  funext j
  obtain ⟨p, q, rfl⟩ : ∃ (p q : Fin 1024), j = ix2 p q := ⟨j 0, j 1, eq_ix2 j⟩
  rw [outsAt0_A m c t h0 h1]
  dsimp only
  refine (congrFun (scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) ((hcond0_0 t).mpr h0) (fun h => h1 ((hcond0_1 t).mp h)) (xblk m c t) (wmublk m c t) (wrhoblk m c t) (wepsblk m c t) (biasblk m c t)) (ix2 p q)).trans ?_
  refine (step_at (wmublk m c t) (wrhoblk m c t) (wepsblk m c t) (xblk m c t) (k0_pay1 (F := Ideal)) p q).trans ?_
  rw [zero_block_at, zero_add]
  refine (stretch_eq m c t p q).trans ?_
  rw [running_at, prefixSum_stretch, h0, Nat.mul_zero, prefixSum_zero, zero_add]

/-- A later point of a run: what the point before left plus the next stretch. -/
theorem later_step (c : Dev nD) (t : Fin cfg0.N) (h0 : ¬t.val % 8 = 0)
    (prev : (outsAt0 m c (t.val - 1) (pred_lt t)).2 = running m c ⟨t.val - 1, pred_lt t⟩) :
    (outsAt0 m c t.val t.isLt).2 = running m c t := by
  funext j
  obtain ⟨p, q, rfl⟩ : ∃ (p q : Fin 1024), j = ix2 p q := ⟨j 0, j 1, eq_ix2 j⟩
  obtain ⟨er, ec, ek⟩ := pred_geometry t h0 p q
  have hacc : (outsAt0 m c (t.val - 1) (pred_lt t)).2 (ix2 p q)
      = prefixSum (xs m c) (wmus m c) (wrhos m c) (wepss m c) (rowOf t p) (colOf t q) (512 * (t.val % 8)) := by
    rw [prev, running_at, er, ec]
    exact congrArg _ ek
  by_cases h1 : t.val % 8 = 7
  · rw [outsAt0_C m c t h0 h1]
    dsimp only
    refine (congrFun (scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) (fun h => h0 ((hcond0_0 t).mp h)) ((hcond0_1 t).mpr h1) (xblk m c t) (wmublk m c t) (wrhoblk m c t) (wepsblk m c t) (biasblk m c t) (outsAt0 m c (t.val - 1) (pred_lt t)).2) (ix2 p q)).trans ?_
    refine (step_at (wmublk m c t) (wrhoblk m c t) (wepsblk m c t) (xblk m c t) (outsAt0 m c (t.val - 1) (pred_lt t)).2 p q).trans ?_
    rw [hacc]
    refine (congrArg (_ + ·) (stretch_eq m c t p q)).trans ?_
    exact (prefixSum_stretch _ _ _ _ _ _ _).symm
  · rw [outsAt0_B m c t h0 h1]
    dsimp only
    refine (congrFun (scratch_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) (fun h => h0 ((hcond0_0 t).mp h)) (fun h => h1 ((hcond0_1 t).mp h)) (xblk m c t) (wmublk m c t) (wrhoblk m c t) (wepsblk m c t) (biasblk m c t) (outsAt0 m c (t.val - 1) (pred_lt t)).2) (ix2 p q)).trans ?_
    refine (step_at (wmublk m c t) (wrhoblk m c t) (wepsblk m c t) (xblk m c t) (outsAt0 m c (t.val - 1) (pred_lt t)).2 p q).trans ?_
    rw [hacc]
    refine (congrArg (_ + ·) (stretch_eq m c t p q)).trans ?_
    exact (prefixSum_stretch _ _ _ _ _ _ _).symm

/-- After every point the scratch holds the running block. -/
theorem scratch_after (c : Dev nD) (n : ℕ) : ∀ h : n < cfg0.N, (outsAt0 m c n h).2 = running m c ⟨n, h⟩ := by
  induction n using Nat.strong_induction_on with
  | _ n ih =>
    intro h
    by_cases h0 : n % 8 = 0
    · exact first_step m c ⟨n, h⟩ h0 (by show ¬n % 8 = 7; omega)
    · exact later_step m c ⟨n, h⟩ h0 (ih (n - 1) (by omega) _)

end Cert.KernelIdeal.Accumulate

end
-- ==== Proof.Result.lean ====
/-
  The output array after the run.

  Only the last of a run's eight points writes its output block back; by then the running block holds the whole
  sum of 4096 terms, and the body adds the bias row's entry of the same column. So that point writes block (row block,
  column block) of one whole-array function, the layer over the arrays the region finds. The sixteen such blocks tile
  the output array — entry (r, o) lies in the block of row block r / 1024 and column block o / 1024 — so the array
  ends holding that function everywhere; and the arrays the region finds are the arguments, the bias row the
  sampled bias.
-/
import proofs.«117726_j8169027797260_1_alg».proof.Proof.Gen.KernelIdeal.Value
import proofs.«117726_j8169027797260_1_alg».proof.Proof.DenseSpec
import proofs.«117726_j8169027797260_1_alg».proof.Proof.BodyPieces
import proofs.«117726_j8169027797260_1_alg».proof.Proof.BodyAt
import proofs.«117726_j8169027797260_1_alg».proof.Proof.Blocks
import proofs.«117726_j8169027797260_1_alg».proof.Proof.HostBias
import proofs.«117726_j8169027797260_1_alg».proof.Proof.Accumulate

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.DenseSpec Cert.KernelIdeal.Blocks Cert.KernelIdeal.Pieces Cert.KernelIdeal.BodyAt
  Cert.KernelIdeal.Accumulate Cert.KernelIdeal.HostBias

variable (m : (ℓ : Loc nD τ sig) → Buf (Elt Ideal) ℓ) (ρ : Dev nD → PrngReg)

/-- The layer over the arrays the region finds: the whole sum plus the bias row's entry. -/
def found (c : Dev nD) : Mat := fun j =>
  prefixSum (xs m c) (wmus m c) (wrhos m c) (wepss m c) (j 0) (j 1) 4096 + (V m c main_v3 : FVec Ideal S1x4096 .f32) (ix2 0 (j 1))

theorem found_at (c : Dev nD) (r o : Fin 4096) :
    found m c (ix2 r o) = prefixSum (xs m c) (wmus m c) (wrhos m c) (wepss m c) r o 4096 + (V m c main_v3 : FVec Ideal S1x4096 .f32) (ix2 0 o) := rfl

/-- What the last point of a run writes back is its block of `found`. -/
theorem flushed_eq (c : Dev nD) (t : Fin cfg0.N) (hf : (cfg0.win 5).flush t = true) :
    (dats m 0 c).flushed 5 t = ((cfg0.win 5).blk t).view.read (Elt Ideal) (found m c) := by
  have h1 : t.val % 8 = 7 := (flush0_5 t).mp hf
  have h0 : ¬t.val % 8 = 0 := by omega
  have hrun : k0_pay2 (F := Ideal) (wmublk m c t) (wrhoblk m c t) (wepsblk m c t) (xblk m c t) (outsAt0 m c (t.val - 1) (pred_lt t)).2
      = running m c t := by
    have h := scratch_after m c t.val t.isLt
    rw [outsAt0_C m c t h0 h1] at h
    dsimp only at h
    exact (scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (xblk m c t) (wmublk m c t) (wrhoblk m c t) (wepsblk m c t) (biasblk m c t) (outsAt0 m c (t.val - 1) (pred_lt t)).2).symm.trans h
  rw [Value.flushed5_C m c t h0 h1]
  funext j
  obtain ⟨p, q, rfl⟩ : ∃ (p q : Fin 1024), j = ix2 p q := ⟨j 0, j 1, eq_ix2 j⟩
  show out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2 (ix2 p q)
      = found m c (((cfg0.win 5).blk t).view.emb (ix2 p q))
  refine (congrFun (output_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (xblk m c t) (wmublk m c t) (wrhoblk m c t) (wepsblk m c t) (biasblk m c t) (outsAt0 m c (t.val - 1) (pred_lt t)).2) (ix2 p q)).trans ?_
  refine (output_at (k0_pay2 (F := Ideal) (wmublk m c t) (wrhoblk m c t) (wepsblk m c t) (xblk m c t) (outsAt0 m c (t.val - 1) (pred_lt t)).2) (biasblk m c t) p q).trans ?_
  rw [hrun, running_at, bias_at, output_place, found_at, h1]

/-- An index of the output array is in point `t`'s block iff each coordinate is in the block's range on its axis. -/
theorem mem_block (t : Fin cfg0.N) (i : S4096x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v4).slice (win0_5.rect t)).set ↔ _
  rw [View.set_slice_whole, Rect.mem_set_unit]
  exact Iff.rfl

/-- Every entry of the output array is in the block some run's last point writes back. -/
theorem covered (i : S4096x4096.Idx) :
    ∃ t : Fin cfg0.N, (cfg0.win 5).flush t = true ∧ i ∈ ((cfg0.win 5).blk t).view.set := by
  have hi0 : (i 0).val < 4096 := (i 0).isLt
  have hi1 : (i 1).val < 4096 := (i 1).isLt
  have hlt : 32 * ((i 0).val / 1024) + 8 * ((i 1).val / 1024) + 7 < cfg0.N := lt_of_lt_of_eq (by omega) N_0.symm
  obtain ⟨e00, e01, e10, e11, e20, e21, e30, e31, e40, e41, e50, e51⟩ := index_facts ⟨_, hlt⟩
  refine ⟨⟨_, hlt⟩, (flush0_5 _).mpr (by show (32 * ((i 0).val / 1024) + 8 * ((i 1).val / 1024) + 7) % 8 = 7; omega), ?_⟩
  rw [mem_block]
  intro a
  match a with
  | ⟨0, _⟩ =>
    show win0_5.index ⟨_, hlt⟩ (0 : Fin 2) * 1024 ≤ (i 0).val ∧ (i 0).val < win0_5.index ⟨_, hlt⟩ (0 : Fin 2) * 1024 + 1024
    rw [e50]
    show (32 * ((i 0).val / 1024) + 8 * ((i 1).val / 1024) + 7) / 32 * 1024 ≤ (i 0).val ∧ (i 0).val < (32 * ((i 0).val / 1024) + 8 * ((i 1).val / 1024) + 7) / 32 * 1024 + 1024
    omega
  | ⟨1, _⟩ =>
    show win0_5.index ⟨_, hlt⟩ (1 : Fin 2) * 1024 ≤ (i 1).val ∧ (i 1).val < win0_5.index ⟨_, hlt⟩ (1 : Fin 2) * 1024 + 1024
    rw [e51]
    show (32 * ((i 0).val / 1024) + 8 * ((i 1).val / 1024) + 7) / 8 % 4 * 1024 ≤ (i 1).val ∧ (i 1).val < (32 * ((i 0).val / 1024) + 8 * ((i 1).val / 1024) + 7) / 8 % 4 * 1024 + 1024
    omega

/-- So the output array ends holding `found`. -/
theorem final (c : Dev nD) : (dats m 0 c).arrAt 5 cfg0.N = found m c :=
  (dats m 0 c).arrAt_eq_of_cover 5 (found m c) (fun t hf => flushed_eq m c t hf) covered

/-- The arrays the region finds are the arguments, and the bias row the sampled bias: `found` is the layer. -/
theorem found_eq (c : Dev nD) :
    found m c = dense (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext j
  obtain ⟨r, o, rfl⟩ : ∃ (r o : Fin 4096), j = ix2 r o := ⟨j 0, j 1, eq_ix2 j⟩
  rw [found_at, row_found_at]
  show prefixSum (V m c main_arg0) (V m c main_arg1) (V m c main_arg2) (V m c main_arg5) r o 4096 + _ = _
  rw [V_main_arg0, V_main_arg1, V_main_arg2, V_main_arg5]
  rfl

/-- The run: the output array ends at the layer of the arguments, and the arguments unchanged. -/
theorem run : θ_run defs (onTc (τ := τ) (main (F := Ideal))) ⟨m, fun _ => 0, ρ⟩ fun r => ∀ c : Dev nD,
      r.2.mem ((c : Thread nD τ).loc main_v4) = dense (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (found_eq m c)), (h c).2⟩) (Value.run_blocks m ρ)

end Cert.KernelIdeal.Result

end
-- ==== Proof.lean ====
/-
  A dense layer whose weights and bias are sampled — `mean + softplus(spread) · noise` — computed two ways, and the
  two results are equal entry by entry over the extended reals.

  The kernel walks a 4 · 4 · 8 grid. For each of the sixteen 1024 × 1024 output blocks it makes eight steps along the
  contracted axis; each step samples a 1024 × 512 block of weights on the fly, multiplies the input's block with its
  transpose and adds the product to a running block, which the first step starts from zero; the eighth step adds the
  bias row and writes the block out. The reference samples the whole weight matrix, contracts the input's second axis
  with the weight's second axis in one product, and adds the bias to every row.

  Both are `∑ₙ x[t, n] · (wmu[o, n] + softplus(wrho[o, n]) · weps[o, n]) + (bmu[o] + softplus(brho[o]) · beps[o])`:
  the kernel's eight partial sums of 512 terms are consecutive stretches of the reference's one sum of 4096 terms,
  joined by associativity of addition alone, so no entry needs to be finite; the two spellings of softplus (a
  self-comparison guard that never fires on the extended reals, `0 − |r|` against `−|r|`) are one function; the
  changes of float format are the identity. The kernel's running block is followed point by point by induction, the
  sixteen written blocks tile the output, and the reference is read one operation at a time.
-/
import proofs.«117726_j8169027797260_1_alg».proof.Defs
import proofs.«117726_j8169027797260_1_alg».proof.Proof.Gen.Kernel
import proofs.«117726_j8169027797260_1_alg».proof.Proof.Gen.Kernel.Skeleton
import proofs.«117726_j8169027797260_1_alg».proof.Proof.Gen.Kernel.Launch
import proofs.«117726_j8169027797260_1_alg».proof.Proof.Gen.Kernel.Points
import proofs.«117726_j8169027797260_1_alg».proof.Proof.Gen.Kernel.Frame
import proofs.«117726_j8169027797260_1_alg».proof.Proof.Gen.KernelIdeal
import proofs.«117726_j8169027797260_1_alg».proof.Proof.Gen.KernelIdeal.Skeleton
import proofs.«117726_j8169027797260_1_alg».proof.Proof.Gen.KernelIdeal.Launch
import proofs.«117726_j8169027797260_1_alg».proof.Proof.Gen.KernelIdeal.Points
import proofs.«117726_j8169027797260_1_alg».proof.Proof.Gen.KernelIdeal.Frame
import proofs.«117726_j8169027797260_1_alg».proof.Proof.Gen.ReferenceIdeal
import proofs.«117726_j8169027797260_1_alg».proof.Proof.Gen.Pre_finite_inputs
import proofs.«117726_j8169027797260_1_alg».proof.Proof.Gen.KernelIdeal.Value
import proofs.«117726_j8169027797260_1_alg».proof.Proof.Gen.ReferenceIdeal.Run
import proofs.«117726_j8169027797260_1_alg».proof.Proof.Gen.ReferenceIdeal.Read
import proofs.«117726_j8169027797260_1_alg».proof.Proof.DenseSpec
import proofs.«117726_j8169027797260_1_alg».proof.Proof.RefDense
import proofs.«117726_j8169027797260_1_alg».proof.Proof.Result
import Idealize.ShloMosaic.Adequacy
import Idealize.ShloMosaic.Init

noncomputable section

namespace Cert.Proof

open Idealize.ShloMosaic Idealize.SL.Sem

/-- The kernel as printed runs to the end without a fault and leaves its arguments alone. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the layer function of the arguments in
    their result: the kernel block by block, the reference operation by operation. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefDense.result_eq]
  rw [(hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
